-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64 : Shape := ⟨1, ![64]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x64 .f32) (main_arg1 : IVec S2x1600000 32) (main_arg2 : FVec F S100000x64 .f32) (main_arg3 : FVec F S64 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S5000x64 : Shape := ⟨2, ![5000, 64]⟩
abbrev S1x64 : Shape := ⟨2, ![1, 64]⟩

abbrev nBuf : Space → Nat
  | .hbm => 66
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000x64, .f32⟩
  | .hbm, ⟨3, _⟩ => ⟨S64, .f32⟩
  | .hbm, ⟨4, _⟩ => ⟨S64x64, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S64x64, .f32⟩
  | .hbm, ⟨65, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v44) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 69
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000x64, .f32⟩
  | .hbm, ⟨3, _⟩ => ⟨S64, .f32⟩
  | .hbm, ⟨4, _⟩ => ⟨S64x64, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S64x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Dense.lean ====
/-
  The dense stage of the layer, as one function of three arrays.

  For a matrix `A` with 64 columns, a 64 × 64 matrix `B` and a vector `b` of 64 entries, entry `(p, q)` of `A · B + b`
  is `(∑ k, A (p, k) * B (k, q)) + b q`: a sum of 64 products on the extended reals, plus one entry of `b`. The
  kernel computes this on blocks of 5000 rows, the reference on all 100000 rows at once; `entry` is stated for any
  number of rows so that both read as the same expression, and `affine` is the whole 100000 × 64 array.

  No law of the extended reals is needed to join the two programs: both form the same 64 products in the same
  order of `k` and add the same entry of `b` last. In particular nothing here needs the inputs to be finite.
-/
import Idealize.ShloMosaic.PureOps.Ideal
import Idealize.ShloMosaic.Lib.ValueIdx

noncomputable section

namespace Cert.Dense

open Idealize.ShloMosaic Idealize.ShloMosaic.ValueIdx

/-- Entry `(p, q)` of `A · B + b`, for a matrix `A` of `R` rows. -/
def entry {R : ℕ} (A : (⟨2, ![R, 64]⟩ : Shape).Idx → EReal) (B : (⟨2, ![64, 64]⟩ : Shape).Idx → EReal)
    (b : (⟨1, ![64]⟩ : Shape).Idx → EReal) (p : Fin R) (q : Fin 64) : EReal :=
  (∑ k : Fin 64, A (ix2 p k) * B (ix2 k q)) + b (ix1 q)

/-- The array `A · B + b` for the layer's 100000 rows, index by index. -/
def affine (A : (⟨2, ![100000, 64]⟩ : Shape).Idx → EReal) (B : (⟨2, ![64, 64]⟩ : Shape).Idx → EReal)
    (b : (⟨1, ![64]⟩ : Shape).Idx → EReal) : (⟨2, ![100000, 64]⟩ : Shape).Idx → EReal :=
  fun j => entry A B b (j 0) (j 1)

/-- `affine` at the index with coordinates `(p, q)`. -/
theorem affine_apply (A : (⟨2, ![100000, 64]⟩ : Shape).Idx → EReal) (B : (⟨2, ![64, 64]⟩ : Shape).Idx → EReal)
    (b : (⟨1, ![64]⟩ : Shape).Idx → EReal) (p : Fin 100000) (q : Fin 64) :
    affine A B b (ix2 p q) = entry A B b p q := rfl

/-- A row of `A · B + b` depends only on that row of `A`: if `A'` has, in its row `p'`, the entries of row `p` of `A`,
    the two entries agree. This is what lets a block of rows be computed from the block alone. -/
theorem entry_congr_row {R R' : ℕ} (A : (⟨2, ![R, 64]⟩ : Shape).Idx → EReal) (A' : (⟨2, ![R', 64]⟩ : Shape).Idx → EReal)
    (B : (⟨2, ![64, 64]⟩ : Shape).Idx → EReal) (b : (⟨1, ![64]⟩ : Shape).Idx → EReal) (p : Fin R) (p' : Fin R') (q : Fin 64)
    (h : ∀ k : Fin 64, A' (ix2 p' k) = A (ix2 p k)) : entry A' B b p' q = entry A B b p q := by
  unfold entry
  simp only [h]

end Cert.Dense

end
-- ==== Proof.RefValue.lean ====
/-
  The reference's result, as the same function of three arrays.

  After the aggregate `agg` and the transposed weights `wT`, the reference forms the host matrix product of the two
  (contracting `agg`'s columns against `wT`'s rows), broadcasts the bias first to one row and then down all 100000 rows,
  and adds. Read at entry `(p, q)`: the product is `∑ k, agg (p, k) * wT (k, q)`, the broadcast bias is `b q`. That is
  `Dense.affine agg wT b`.
-/
import proofs.«102730_j15126874817099_1_alg».proof.Proof.RefRead
import proofs.«102730_j15126874817099_1_alg».proof.Proof.Dense
import Idealize.ShloMosaic.Lib.ValueIdx

noncomputable section

namespace Cert.ReferenceIdeal.RefValue

open Cert.ReferenceIdeal Cert.ReferenceIdeal.ReadP Idealize.ShloMosaic Idealize.ShloMosaic.ValueIdx

/-- The reference's result stage is `affine` of its aggregate stage, its transposed weights and the bias. -/
theorem result_eq (x0 : (⟨S100000x64, .f32⟩ : BufTy).Contents (Elt Ideal)) (x1 : (⟨S2x1600000, .i32⟩ : BufTy).Contents (Elt Ideal))
    (x3 : (⟨S64, .f32⟩ : BufTy).Contents (Elt Ideal)) (x4 : (⟨S64x64, .f32⟩ : BufTy).Contents (Elt Ideal)) :
    val_main_v49 (F := Ideal) x0 x1 x3 x4
      = Cert.Dense.affine (val_main_v44 (F := Ideal) x0 x1) (val_main_v45 (F := Ideal) x4) x3 := by
  funext i
  obtain ⟨p, q, rfl⟩ : ∃ (p : Fin 100000) (q : Fin 64), i = ix2 p q := ⟨i 0, i 1, eq_ix2 i⟩
  have hl : ∀ k : Fin 64, lidx_main_v46 (ix2 p q) k = ix2 p k := fun k => funext fun a => Fin.ext (by
    match a with
    | ⟨0, _⟩ => rfl
    | ⟨1, _⟩ => rfl)
  have hr : ∀ k : Fin 64, ridx_main_v46 (ix2 p q) k = ix2 k q := fun k => funext fun a => Fin.ext (by
    match a with
    | ⟨0, _⟩ => rfl
    | ⟨1, _⟩ => rfl)
  have hb : idx_main_v47 (idx_main_v48 (ix2 p q)) = ix1 q := funext fun a => Fin.ext (by
    match a with
    | ⟨0, _⟩ => rfl)
  rw [val_main_v49_apply, val_main_v46_apply, val_main_v48_apply, val_main_v47_apply, Cert.Dense.affine_apply]
  simp only [hl, hr, hb]
  rfl

end Cert.ReferenceIdeal.RefValue

end
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.KernelBlock.lean ====
/-
  What the kernel body stores, entry by entry.

  At one grid point the body loads a block `x` of 5000 rows of the aggregated features, the whole 64 × 64 matrix `w`
  and the bias `b`, and stores `x · w + b` over the block: the two changes of float format before the product are the
  identity on the extended reals, the product accumulates into zero, so its entry `(p, q)` is `∑ k, x (p, k) * w (k, q)`,
  and the bias, cast to one row and laid along every row, contributes `b q`.
-/
import proofs.«102730_j15126874817099_1_alg».proof.Proof.Gen.KernelIdeal.Skeleton
import proofs.«102730_j15126874817099_1_alg».proof.Proof.LibPlainDot
import proofs.«102730_j15126874817099_1_alg».proof.Proof.Dense
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

/-- The bias cast to a one-row matrix and laid along each of the 5000 rows reads, at `(p, q)`, entry `q` of the bias:
    the broadcast reads row 0 of the one-row matrix, and the cast keeps the row-major position. -/
theorem biasRows_apply (b : S64.Idx → EReal) (h1 : S64.ShapeCasts S1x64) (hb : S1x64.Broadcasts S5000x64)
    (p : Fin 5000) (q : Fin 64) :
    broadcastTo S5000x64 (shapeCast S1x64 b h1) hb (ix2 p q) = b (ix1 q) := by
  refine (broadcastTo_apply (shapeCast S1x64 b h1) hb (ix2 p q) (ix2 (0 : Fin 1) q) ?_).trans ?_
  · intro a
    match a with
    | ⟨0, _⟩ => rfl
    | ⟨1, _⟩ => show q.val = if (64 : ℕ) = 1 then 0 else q.val; rw [if_neg (by decide)]
  · exact shapeCast_apply b h1 (ix2 (0 : Fin 1) q) (ix1 q) (by
      rw [Shape.rowMajor_val_two, Shape.rowMajor_val_one]; show q.val = 0 * 64 + q.val; omega)

/-- The value the body stores, at `(p, q)` of the block: `(∑ k, x (p, k) * w (k, q)) + b q`. -/
theorem stored_apply (x : Vec Ideal S5000x64 .f32) (w : Vec Ideal S64x64 .f32) (b : Vec Ideal S64 .f32)
    (p : Fin 5000) (q : Fin 64) :
    k0_pay1 (F := Ideal) x w b (ix2 p q) = Cert.Dense.entry x w b p q := by
  have hprod : matmul dot_S5000x64_S64x64_S5000x64_1_0_0_1_n_n none
        (truncf .bf16 (shapeCast S5000x64 x shapeCasts_S5000x64_S5000x64 : FVec Ideal S5000x64 .f32) bitsLt_bf16_f32)
        (truncf .bf16 (shapeCast S64x64 w shapeCasts_S64x64_S64x64 : FVec Ideal S64x64 .f32) bitsLt_bf16_f32)
        (constant S5000x64 .f32 0x00000000#32) (ix2 p q) = ∑ k : Fin 64, x (ix2 p k) * w (ix2 k q) := by
    rw [shapeCast_self, shapeCast_self]
    exact Cert.PlainDot.matmul_zero_apply dot_S5000x64_S64x64_S5000x64_1_0_0_1_n_n rfl rfl rfl rfl rfl rfl none _ _ p q
  unfold k0_pay1 Cert.Dense.entry
  exact congrArg₂ (· + ·) hprod (biasRows_apply b shapeCasts_S64_S1x64 broadcasts_S1x64_S5000x64 p q)

/-- The stored entry reads only row `p` of the block: if that row is row `r` of a 100000-row matrix `A`, the stored entry
    `(p, q)` is entry `(r, q)` of `A · w + b`. -/
theorem stored_row (x : Vec Ideal S5000x64 .f32) (A : Vec Ideal S100000x64 .f32) (w : Vec Ideal S64x64 .f32) (b : Vec Ideal S64 .f32)
    (p : Fin 5000) (q : Fin 64) (r : Fin 100000) (h : ∀ k : Fin 64, x (ix2 p k) = A (ix2 r k)) :
    k0_pay1 (F := Ideal) x w b (ix2 p q) = Cert.Dense.affine A w b (ix2 r q) :=
  (stored_apply x w b p q).trans
    ((Cert.Dense.entry_congr_row A x w b r p q h).trans (Cert.Dense.affine_apply A w b r q).symm)

end Cert.KernelIdeal.Block

end
-- ==== Proof.EntryArrays.lean ====
/-
  The arrays the kernel region is entered with are the reference's intermediate arrays.

  Before the region the kernel's program computes, on the host, the normalised neighbourhood aggregate of the node
  features (self-loops appended to the edge list; the in-degree by a scatter-add of ones; its inverse square root where
  positive, zero elsewhere; each edge weighted by the product of the two end points' factors; the weighted source
  features scatter-added by target node) and the transpose of the weight matrix. The reference computes the same two
  arrays by the same operations, in the same order, before its matrix product. So the two arrays, as functions of the
  programs' arguments, are the reference's two stages, operation for operation: nothing is reordered, and the
  equalities hold at every float instance.
-/
import proofs.«102730_j15126874817099_1_alg».proof.Proof.Gen.KernelIdeal.Frame
import proofs.«102730_j15126874817099_1_alg».proof.Proof.RefRead
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 25600000 in
/-- The aggregated features the region's first window stages are the reference's aggregate of the node features and
    the edge list. -/
theorem agg_eq (c : Dev nD) :
    (V m c main_v44 : S100000x64.Idx → Elt F .f32)
      = Cert.ReferenceIdeal.ReadP.val_main_v44 (F := F) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp <;> rfl

set_option maxRecDepth 8192 in
set_option maxHeartbeats 25600000 in
/-- The matrix the region's second window stages is the reference's transpose of the weight matrix. -/
theorem wT_eq (c : Dev nD) :
    (V m c main_v45 : S64x64.Idx → Elt F .f32)
      = Cert.ReferenceIdeal.ReadP.val_main_v45 (F := F) (m ((c : Thread nD τ).loc main_arg4)) := by
  dsimp only [V]
  simp only [hostOps0, hostOps0_1, hostOps0_2, List.flatten_cons, List.flatten_nil, List.append_nil, List.cons_append,
    List.nil_append]
  after_results_simp <;> rfl

end Cert.KernelIdeal.Entry

end
-- ==== Proof.KernelWhole.lean ====
/-
  The kernel's result array, whole, at any float instance.

  The grid has 20 points. At point `t` the feature window and the result window hold rows `5000 t … 5000 t + 4999` of
  their arrays (all 64 columns), while the weight window and the bias window hold their whole arrays at every point.
  Suppose `G A W b` is a function of three whole arrays such that the entry the body stores at `(p, q)` of its block is
  `G A W b` at `(r, q)` whenever row `p` of the feature block is row `r` of `A` (the body's entry reads only that row of
  the block). Then what point `t` writes back is block `t` of `G agg wT bias`; the 20 blocks tile the 100000 rows
  (row `r` lies in block `r / 5000`), so after the run the result array is `G agg wT bias`, where `agg` and `wT` are the
  reference's aggregate and transposed weights of the same arguments.

  Everything here is independent of the float instance: it is about which entries are read and written, not about
  their arithmetic.
-/
import proofs.«102730_j15126874817099_1_alg».proof.Proof.Gen.KernelIdeal.Value
import proofs.«102730_j15126874817099_1_alg».proof.Proof.EntryArrays
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The three arrays the region reads, as it finds them: the aggregated features, the transposed weights, the bias. -/
abbrev aggArr (c : Dev nD) : Vec F S100000x64 .f32 := V m c main_v44
abbrev wArr (c : Dev nD) : Vec F S64x64 .f32 := V m c main_v45
abbrev bArr (c : Dev nD) : Vec F S64 .f32 := V m c main_arg3

theorem hz2 : (![0, 0] : Fin 2 → Nat) = fun _ => 0 := funext fun a => by fin_cases a <;> rfl
theorem hz1 : (![0] : Fin 1 → Nat) = fun _ => 0 := funext fun a => by fin_cases a <;> rfl

/-- The printed index maps over the 20 points: the feature and result windows are at block row `t`, block column 0;
    the weight and bias windows never move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The feature block at point `t` is rows `5000 t …` of the aggregate: its entry `(p, k)` is the aggregate's `(5000 t + p, k)`. -/
theorem xblk_apply (c : Dev nD) (t : Fin cfg0.N) (p : Fin 5000) (k : Fin 64) (r : Fin 100000) (hr : r.val = 5000 * t.val + p.val) :
    (iblk m c 0 t : Vec F S5000x64 .f32) (ix2 p k) = aggArr m c (ix2 r k) := by
  obtain ⟨e0, e1, -⟩ := idx_facts t
  unfold iblk
  rw [View.read_apply]
  show V m c main_v44 (((cfg0.win 0).blk t).view.emb (ix2 p k)) = V m c main_v44 (ix2 r k)
  congr 1
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The weight block at every point is the whole transposed weight matrix. -/
theorem wblk_eq (c : Dev nD) (t : Fin cfg0.N) : (iblk m c 1 t : Vec F S64x64 .f32) = wArr m c := by
  obtain ⟨-, -, e0, e1, -⟩ := idx_facts t
  funext y
  unfold iblk
  rw [View.read_apply]
  show V m c main_v45 (((cfg0.win 1).blk t).view.emb y) = V m c main_v45 y
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- The bias block at every point is the whole bias. -/
theorem bblk_eq (c : Dev nD) (t : Fin cfg0.N) : (iblk m c 2 t : Vec F S64 .f32) = bArr m c := by
  obtain ⟨-, -, -, -, e0, -⟩ := idx_facts t
  funext y
  unfold iblk
  rw [View.read_apply]
  show V m c main_arg3 (((cfg0.win 2).blk t).view.emb y) = V m c main_arg3 y
  congr 1
  funext a
  apply Fin.ext
  match a with
  | ⟨0, _⟩ => show win0_2.index t (0 : Fin 1) * 64 + 1 * (y 0).val = (y 0).val; rw [e0]; omega

section AnyRowwiseFunction

variable (G : Vec F S100000x64 .f32 → Vec F S64x64 .f32 → Vec F S64 .f32 → Vec F S100000x64 .f32)
/- The stored entry `(p, q)` computed from a block `x` is `G A W b` at `(r, q)` whenever row `p` of `x` is row `r` of `A`. -/
variable (hG : ∀ (x : Vec F S5000x64 .f32) (A : Vec F S100000x64 .f32) (W : Vec F S64x64 .f32) (b : Vec F S64 .f32)
    (p : Fin 5000) (q : Fin 64) (r : Fin 100000), (∀ k : Fin 64, x (ix2 p k) = A (ix2 r k)) →
    k0_pay1 x W b (ix2 p q) = G A W b (ix2 r q))

include hG in
/-- WHAT POINT `t` WRITES BACK is block `t` of `G agg wT bias`: entry `(p, q)` of the stored block is that array's entry at
    row `5000 t + p`, column `q`. -/
theorem flushed_eq (c : Dev nD) (t : Fin cfg0.N) :
    (dats m 0 c).flushed 3 t = ((cfg0.win 3).blk t).view.read (Elt F) (G (aggArr m c) (wArr m c) (bArr m c)) := by
  rw [Cert.KernelIdeal.Value.flushed3]
  unfold out0_3
  rw [View.canon_unit_zero hz2]
  simp only [View.ld_unit_zero (S := S5000x64) hz2, View.ld_unit_zero (S := S64x64) hz2, View.ld_unit_zero (S := S64) hz1]
  obtain ⟨-, -, -, -, -, e0, e1⟩ := idx_facts t
  have hN : t.val < 20 := Nat.lt_of_lt_of_eq t.isLt N_0
  funext j
  obtain ⟨p, q, rfl⟩ : ∃ (p : Fin 5000) (q : Fin 64), j = ix2 p q := ⟨j 0, j 1, eq_ix2 j⟩
  have hemb : ((cfg0.win 3).blk t).view.emb (ix2 p q) = ix2 (⟨5000 * t.val + p.val, by have := p.isLt; omega⟩ : Fin 100000) q := by
    funext a
    apply Fin.ext
    match a with
    | ⟨0, _⟩ => show win0_3.index t (0 : Fin 2) * 5000 + 1 * p.val = 5000 * t.val + p.val; rw [e0]; omega
    | ⟨1, _⟩ => show win0_3.index t (1 : Fin 2) * 64 + 1 * q.val = q.val; rw [e1]; omega
  show k0_pay1 (iblk m c 0 t) (iblk m c 1 t) (iblk m c 2 t) (ix2 p q)
    = G (aggArr m c) (wArr m c) (bArr m c) (((cfg0.win 3).blk t).view.emb (ix2 p q))
  rw [hemb, wblk_eq m c t, bblk_eq m c t]
  exact hG (iblk m c 0 t) (aggArr m c) (wArr m c) (bArr m c) p q _ (fun k => xblk_apply m c t p k _ rfl)

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v46).slice (win0_3.rect t)).set ↔ _
  rw [View.set_slice_whole, Rect.mem_set_unit]
  exact Iff.rfl

/-- Every index of the result array is in some point's block: row `r` is in block `r / 5000`. -/
theorem covered (i : S100000x64.Idx) : ∃ t : Fin cfg0.N, (cfg0.win 3).flush t = true ∧ i ∈ ((cfg0.win 3).blk t).view.set := by
  have h0 : (i 0).val < 100000 := (i 0).isLt
  have h1 : (i 1).val < 64 := (i 1).isLt
  obtain ⟨t, ht⟩ : ∃ t : Fin cfg0.N, t.val = (i 0).val / 5000 := ⟨⟨(i 0).val / 5000, by rw [show cfg0.N = 20 from N_0]; omega⟩, rfl⟩
  obtain ⟨-, -, -, -, -, e0, e1⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 64 ≤ (i 1).val ∧ (i 1).val < win0_3.index t (1 : Fin 2) * 64 + 64; rw [e1]; omega

include hG in
/-- THE RESULT ARRAY after the run is `G agg wT bias`. -/
theorem final (c : Dev nD) : (dats m 0 c).arrAt 3 cfg0.N = G (aggArr m c) (wArr m c) (bArr m c) :=
  (dats m 0 c).arrAt_eq_of_cover 3 (G (aggArr m c) (wArr m c) (bArr m c)) (fun t _ => flushed_eq m G hG c t) covered

include hG in
/-- The kernel's run: the result array ends at `G` of the reference's aggregate and transposed weights of the arguments
    and of the bias; the arguments are unchanged. -/
theorem run : θ_run defs (onTc (τ := τ) (main (F := F))) ⟨m, fun _ => 0, ρ⟩ fun r => ∀ c : Dev nD,
      r.2.mem ((c : Thread nD τ).loc main_v46)
        = G (Cert.ReferenceIdeal.ReadP.val_main_v44 (F := F) (m ((c : Thread nD τ).loc main_arg0)) (m ((c : Thread nD τ).loc main_arg1)))
            (Cert.ReferenceIdeal.ReadP.val_main_v45 (F := F) (m ((c : Thread nD τ).loc main_arg4)))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m G hG c).trans (by
      show G (V m c main_v44) (V m c main_v45) (V m c main_arg3) = _
      rw [Cert.KernelIdeal.Entry.agg_eq m c, Cert.KernelIdeal.Entry.wT_eq m c, V_main_arg3 m c])), (h c).2⟩)
    (Cert.KernelIdeal.Value.run_blocks m ρ)

end AnyRowwiseFunction

end Cert.KernelIdeal.Whole

end
-- ==== Proof.lean ====
/-
  The certificate of the layer's dense stage: `out = agg · Wᵀ + bias` over 100000 rows.

  Both programs first compute, by the same host operations in the same order, the normalised neighbourhood aggregate
  `agg` of the node features (from `x` and `edge_index`) and the transpose `wT` of the weight matrix. The kernel then
  runs a grid of 20 points, each computing `agg_block · wT + bias` for 5000 rows (a matrix product into a zero
  accumulator after two changes of float format that are the identity on the extended reals, plus the bias laid along
  the rows); the reference forms one host matrix product over all rows and adds the broadcast bias. On the extended
  reals both are, entry by entry, `(∑ k, agg (p, k) * wT (k, q)) + bias q` with the 64 products in the same order: no
  algebraic law joins the two sides, only the observation that a row of the product depends on that row of `agg` alone,
  so the 20 blocks of rows tile the result. Finiteness of the inputs is never used.

  The modules: `Dense` (the function of three arrays), `KernelBlock` (what the body stores, entry by entry),
  `EntryArrays` (the arrays the region is entered with are the reference's `agg` and `wT`), `KernelWhole` (blocks to the
  whole array, and the kernel's run), `RefValue` (the reference's result is the same function).
-/
import proofs.«102730_j15126874817099_1_alg».proof.Defs
import proofs.«102730_j15126874817099_1_alg».proof.Proof.Gen.Kernel
import proofs.«102730_j15126874817099_1_alg».proof.Proof.Gen.Kernel.Frame
import proofs.«102730_j15126874817099_1_alg».proof.Proof.Gen.KernelIdeal
import proofs.«102730_j15126874817099_1_alg».proof.Proof.Gen.KernelIdeal.Frame
import proofs.«102730_j15126874817099_1_alg».proof.Proof.Gen.KernelIdeal.Value
import proofs.«102730_j15126874817099_1_alg».proof.Proof.Gen.ReferenceIdeal
import proofs.«102730_j15126874817099_1_alg».proof.Proof.Gen.Pre_finite_inputs
import proofs.«102730_j15126874817099_1_alg».proof.Proof.RefRun
import proofs.«102730_j15126874817099_1_alg».proof.Proof.RefRead
import proofs.«102730_j15126874817099_1_alg».proof.Proof.RefValue
import proofs.«102730_j15126874817099_1_alg».proof.Proof.KernelBlock
import proofs.«102730_j15126874817099_1_alg».proof.Proof.KernelWhole
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- On the extended reals the kernel's result array and the reference's are both `agg · wT + bias` of arguments that
    agree: the kernel's by its 20 row blocks, the reference's by one product. -/
theorem algebraic : Cert.algebraic_KernelIdeal_ReferenceIdeal := by
  intro m ρ m' ρ' _ hagree
  refine ⟨_, Cert.KernelIdeal.Whole.run (F := Ideal) m ρ Cert.Dense.affine Cert.KernelIdeal.Block.stored_row, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v49_eq, Cert.ReferenceIdeal.RefValue.result_eq]
  obtain ⟨h0, h1, -, h3, h4⟩ := hagree c
  rw [h0, h1, h3, h4]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
